-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x20 : Shape := ⟨2, ![100000, 20]⟩
abbrev S2x3200000 : Shape := ⟨2, ![2, 3200000]⟩
abbrev S16x20 : Shape := ⟨2, ![16, 20]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S100000x20 : S_.BroadcastsInDim S100000x20 (![] : Fin 0 → Fin S100000x20.rank)
  reducesTo_S100000x20_S_d0_1 : S100000x20.ReducesTo [0, 1] S_
  h_S_ : 0 < S_.numel
  bcast_S_S16x20 : S_.BroadcastsInDim S16x20 (![] : Fin 0 → Fin S16x20.rank)
  reducesTo_S16x20_S_d0_1 : S16x20.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x16 .f32) (main_arg6 : FVec F S1 .f32) (main_arg7 : FVec F S1x16 .f32) (main_v13 : IVec S_ 1) (main_v16 : IVec S16x20 1) : IVec S_ 1 :=
  let main_c_5 : IVec S_ 1 := constantI S_ 1 1#1
  let main_v17 : IVec S_ 1 := (fun x v => Host.reduce IntOp.andi x v reducesTo_S16x20_S_d0_1 h_S_) main_v16 main_c_5
  let main_v18 : IVec S_ 1 := andi main_v13 main_v17
  let main_v19 : FVec F S1x16 .f32 := Host.absf main_arg5
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1x16 .f32 := Host.absf main_arg7
  let main_cst_10 : FVec F S_ .f32 := constant S_ .f32 0x7F800000#32
  let main_v30 : FVec F S1x16 .f32 := broadcastInDim S1x16 ![] bcast_S_S1x16 main_cst_10
  let main_v31 : IVec S1x16 1 := cmpf .olt main_v29 main_v30
  let main_c_11 : IVec S_ 1 := constantI S_ 1 1#1
  let main_v32 : IVec S_ 1 := (fun x v => Host.reduce IntOp.andi x v reducesTo_S1x16_S_d0_1 h_S_) main_v31 main_c_11
  let main_v33 : IVec S_ 1 := andi main_v28 main_v32
  main_v33

def fn {F : FTy → Type} [FloatOps F] (main_arg0 : FVec F S100000x20 .f32) (main_arg1 : IVec S2x3200000 32) (main_arg2 : FVec F S16x20 .f32) (main_arg3 : FVec F S16 .f32) (main_arg4 : FVec F S16x20 .f32) (main_arg5 : FVec F S1x16 .f32) (main_arg6 : FVec F S1 .f32) (main_arg7 : FVec F S1x16 .f32) : IVec S_ 1 :=
  let main_v0 : FVec F S100000x20 .f32 := Host.absf main_arg0
  let main_cst : FVec F S_ .f32 := constant S_ .f32 0x7F800000#32
  let main_v1 : FVec F S100000x20 .f32 := broadcastInDim S100000x20 ![] bcast_S_S100000x20 main_cst
  let main_v2 : IVec S100000x20 1 := cmpf .olt main_v0 main_v1
  let main_c : IVec S_ 1 := constantI S_ 1 1#1
  let main_v3 : IVec S_ 1 := (fun x v => Host.reduce IntOp.andi x v reducesTo_S100000x20_S_d0_1 h_S_) main_v2 main_c
  let main_v4 : FVec F S16x20 .f32 := Host.absf main_arg2
  let main_cst_0 : FVec F S_ .f32 := constant S_ .f32 0x7F800000#32
  let main_v5 : FVec F S16x20 .f32 := broadcastInDim S16x20 ![] bcast_S_S16x20 main_cst_0
  let main_v6 : IVec S16x20 1 := cmpf .olt main_v4 main_v5
  let main_c_1 : IVec S_ 1 := constantI S_ 1 1#1
  let main_v7 : IVec S_ 1 := (fun x v => Host.reduce IntOp.andi x v reducesTo_S16x20_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x20 .f32 := Host.absf main_arg4
  let main_cst_4 : FVec F S_ .f32 := constant S_ .f32 0x7F800000#32
  let main_v15 : FVec F S16x20 .f32 := broadcastInDim S16x20 ![] bcast_S_S16x20 main_cst_4
  let main_v16 : IVec S16x20 1 := cmpf .olt main_v14 main_v15
  fn_part1 (F := F) main_arg5 main_arg6 main_arg7 main_v13 main_v16
-- ==== Kernel.lean ====
abbrev S100000x20 : Shape := ⟨2, ![100000, 20]⟩
abbrev S2x3200000 : Shape := ⟨2, ![2, 3200000]⟩
abbrev S16x20 : Shape := ⟨2, ![16, 20]⟩
abbrev S16 : Shape := ⟨1, ![16]⟩
abbrev S1x16 : Shape := ⟨2, ![1, 16]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x20 : Shape := ⟨2, ![3200000, 20]⟩
abbrev S100000x16 : Shape := ⟨2, ![100000, 16]⟩
abbrev S10000x20 : Shape := ⟨2, ![10000, 20]⟩
abbrev S10000x16 : Shape := ⟨2, ![10000, 16]⟩
abbrev S20x16 : Shape := ⟨2, ![20, 16]⟩
abbrev S3200000x16 : Shape := ⟨2, ![3200000, 16]⟩
abbrev S100000x1 : Shape := ⟨2, ![100000, 1]⟩
abbrev S10000x1 : Shape := ⟨2, ![10000, 1]⟩
abbrev S16x1 : Shape := ⟨2, ![16, 1]⟩
abbrev S1x1 : Shape := ⟨2, ![1, 1]⟩

abbrev nBuf : Space → Nat
  | .hbm => 40
  | .vmem => 18
  | .smem => 0
  | _ => 0

abbrev bufTy : (tb : Table) → Fin (tcTables nBuf tb) → BufTy
  | .hbm, ⟨0, _⟩ => ⟨S100000x20, .f32⟩
  | .hbm, ⟨1, _⟩ => ⟨S2x3200000, .i32⟩
  | .hbm, ⟨2, _⟩ => ⟨S16x20, .f32⟩
  | .hbm, ⟨3, _⟩ => ⟨S16, .f32⟩
  | .hbm, ⟨4, _⟩ => ⟨S16x20, .f32⟩
  | .hbm, ⟨5, _⟩ => ⟨S1x16, .f32⟩
  | .hbm, ⟨6, _⟩ => ⟨S1, .f32⟩
  | .hbm, ⟨7, _⟩ => ⟨S1x16, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x20, .f32⟩
  | .hbm, ⟨21, _⟩ => ⟨S_, .f32⟩
  | .hbm, ⟨22, _⟩ => ⟨S100000x20, .f32⟩
  | .hbm, ⟨23, _⟩ => ⟨S3200000x1, .i32⟩
  | .hbm, ⟨24, _⟩ => ⟨S100000x20, .f32⟩
  | .hbm, ⟨25, _⟩ => ⟨S100000x16, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000x16, .f32⟩
  | .hbm, ⟨35, _⟩ => ⟨S_, .f32⟩
  | .hbm, ⟨36, _⟩ => ⟨S100000x16, .f32⟩
  | .hbm, ⟨37, _⟩ => ⟨S3200000x1, .i32⟩
  | .hbm, ⟨38, _⟩ => ⟨S100000x16, .f32⟩
  | .hbm, ⟨39, _⟩ => ⟨S100000x1, .f32⟩
  | .local _ .vmem, ⟨0, _⟩ => ⟨S10000x20, .f32⟩
  | .local _ .vmem, ⟨1, _⟩ => ⟨S10000x20, .f32⟩
  | .local _ .vmem, ⟨2, _⟩ => ⟨S10000x20, .f32⟩
  | .local _ .vmem, ⟨3, _⟩ => ⟨S10000x20, .f32⟩
  | .local _ .vmem, ⟨4, _⟩ => ⟨S16x20, .f32⟩
  | .local _ .vmem, ⟨5, _⟩ => ⟨S16, .f32⟩
  | .local _ .vmem, ⟨6, _⟩ => ⟨S16x20, .f32⟩
  | .local _ .vmem, ⟨7, _⟩ => ⟨S10000x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S1x16, .f32⟩
  | .local _ .vmem, ⟨14, _⟩ => ⟨S1, .f32⟩
  | .local _ .vmem, ⟨15, _⟩ => ⟨S1x16, .f32⟩
  | .local _ .vmem, ⟨16, _⟩ => ⟨S10000x1, .f32⟩
  | .local _ .vmem, ⟨17, _⟩ => ⟨S10000x1, .f32⟩
  | _, _ => ⟨S100000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x20 : S_.BroadcastsInDim S100000x20 (![] : Fin 0 → Fin S100000x20.rank)
  inb_S10000x20_S10000x20_0_0 : ∀ a, (![0, 0] : Fin 2 → Nat) a + S10000x20.size a ≤ S10000x20.size a
  h_S10000x20 : 0 < S10000x20.numel
  shapeCasts_S10000x20_S10000x20 : S10000x20.ShapeCasts S10000x20
  bitsLt_bf16_f32 : FTy.bits .bf16 < FTy.bits .f32
  inb_S16x20_S16x20_0_0 : ∀ a, (![0, 0] : Fin 2 → Nat) a + S16x20.size a ≤ S16x20.size a
  h_S16x20 : 0 < S16x20.numel
  inb_S16_S16_0 : ∀ a, (![0] : Fin 1 → Nat) a + S16.size a ≤ S16.size a
  h_S16 : 0 < S16.numel
  transposes_S16x20_p1_0_S20x16 : S16x20.Transposes [1, 0] S20x16
  shapeCasts_S16_S1x16 : S16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S_S100000x16 : S_.BroadcastsInDim S100000x16 (![] : Fin 0 → Fin S100000x16.rank)
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  inb_S1_S1_0 : ∀ a, (![0] : Fin 1 → Nat) a + S1.size a ≤ S1.size a
  h_S1 : 0 < S1.numel
  transposes_S1x16_p1_0_S16x1 : S1x16.Transposes [1, 0] S16x1
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  gather_S100000x20_S3200000x1_S3200000x20_1_0_n_n_0_1_120_wf : GatherDims.WF S100000x20 S3200000x1 S3200000x20 [1] [0] [] [0] [] 1 ![1, 20]
  scatter_S100000x20_S3200000x1_S3200000x20_1_0_0_1_wf : ScatterDims.WF S100000x20 S3200000x1 S3200000x20 [1] [0] [0] 1
  dot_S10000x20_S20x16_S10000x16_1_0_0_1_n_n_wf : DotDims.WF S10000x20 S20x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x16_S16x1_S10000x1_1_0_0_1_n_n_wf : DotDims.WF S10000x16 S16x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x20.size a ≤ S100000x20.size a
  hwx0_0 : ∀ i : grid0.Coords, EltTy.bits .f32 = 32 ∨ (Rect.block (s := S100000x20) S10000x20.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x20.size a ≤ S100000x20.size a
  hwx0_1 : ∀ i : grid0.Coords, EltTy.bits .f32 = 32 ∨ (Rect.block (s := S100000x20) S10000x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x20.size a ≤ S16x20.size a
  hwx0_2 : ∀ i : grid0.Coords, EltTy.bits .f32 = 32 ∨ (Rect.block (s := S16x20) S16x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16.size a ≤ S16.size a
  hwx0_3 : ∀ i : grid0.Coords, EltTy.bits .f32 = 32 ∨ (Rect.block (s := S16) S16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x20.size a ≤ S16x20.size a
  hwx0_4 : ∀ i : grid0.Coords, EltTy.bits .f32 = 32 ∨ (Rect.block (s := S16x20) S16x20.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x16.size a ≤ S100000x16.size a
  hwx0_5 : ∀ i : grid0.Coords, EltTy.bits .f32 = 32 ∨ (Rect.block (s := S100000x16) S10000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1.size a ≤ S1.size a
  hwx1_3 : ∀ i : grid1.Coords, EltTy.bits .f32 = 32 ∨ (Rect.block (s := S1) S1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x1.size a ≤ S100000x1.size a
  hwx1_5 : ∀ i : grid1.Coords, EltTy.bits .f32 = 32 ∨ (Rect.block (s := S100000x1) S10000x1.size (cc1_transform_5 i) (hinb1_5 i)).WholeWords (EltTy.packing .f32)

variable [Facts₀]

def gather_S100000x20_S3200000x1_S3200000x20_1_0_n_n_0_1_120 : GatherDims S100000x20 S3200000x1 S3200000x20 where
  offsetDims := [1]
  collapsedSliceDims := [0]
  operandBatchingDims := []
  startIndicesBatchingDims := []
  startIndexMap := [0]
  indexVectorDim := 1
  sliceSizes := ![1, 20]
  wf := gather_S100000x20_S3200000x1_S3200000x20_1_0_n_n_0_1_120_wf
def scatter_S100000x20_S3200000x1_S3200000x20_1_0_0_1 : ScatterDims S100000x20 S3200000x1 S3200000x20 where
  updateWindowDims := [1]
  insertedWindowDims := [0]
  scatterDimsToOperandDims := [0]
  indexVectorDim := 1
  wf := scatter_S100000x20_S3200000x1_S3200000x20_1_0_0_1_wf
def dot_S10000x20_S20x16_S10000x16_1_0_0_1_n_n : DotDims S10000x20 S20x16 S10000x16 where
  lhsContracting := [1]
  rhsContracting := [0]
  lhsNonContracting := [0]
  rhsNonContracting := [1]
  lhsBatch := []
  rhsBatch := []
  wf := dot_S10000x20_S20x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf

abbrev win0_0 : Pipeline.Window sig grid0 :=
  Pipeline.Window.ofSpec (Memref.whole main_v13) S10000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S10000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S10000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x20 : Shape := ⟨2, ![100000, 20]⟩
abbrev S2x3200000 : Shape := ⟨2, ![2, 3200000]⟩
abbrev S16x20 : Shape := ⟨2, ![16, 20]⟩
abbrev S16 : Shape := ⟨1, ![16]⟩
abbrev S1x16 : Shape := ⟨2, ![1, 16]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x20 : Shape := ⟨2, ![3200000, 20]⟩
abbrev S20x16 : Shape := ⟨2, ![20, 16]⟩
abbrev S100000x16 : Shape := ⟨2, ![100000, 16]⟩
abbrev S3200000x16 : Shape := ⟨2, ![3200000, 16]⟩
abbrev S16x1 : Shape := ⟨2, ![16, 1]⟩
abbrev S100000x1 : Shape := ⟨2, ![100000, 1]⟩
abbrev S1x1 : Shape := ⟨2, ![1, 1]⟩

abbrev nBuf : Space → Nat
  | .hbm => 57
  | .vmem => 0
  | .smem => 0
  | _ => 0

abbrev bufTy : (tb : Table) → Fin (tcTables nBuf tb) → BufTy
  | .hbm, ⟨0, _⟩ => ⟨S100000x20, .f32⟩
  | .hbm, ⟨1, _⟩ => ⟨S2x3200000, .i32⟩
  | .hbm, ⟨2, _⟩ => ⟨S16x20, .f32⟩
  | .hbm, ⟨3, _⟩ => ⟨S16, .f32⟩
  | .hbm, ⟨4, _⟩ => ⟨S16x20, .f32⟩
  | .hbm, ⟨5, _⟩ => ⟨S1x16, .f32⟩
  | .hbm, ⟨6, _⟩ => ⟨S1, .f32⟩
  | .hbm, ⟨7, _⟩ => ⟨S1x16, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x20, .f32⟩
  | .hbm, ⟨21, _⟩ => ⟨S_, .f32⟩
  | .hbm, ⟨22, _⟩ => ⟨S100000x20, .f32⟩
  | .hbm, ⟨23, _⟩ => ⟨S3200000x1, .i32⟩
  | .hbm, ⟨24, _⟩ => ⟨S100000x20, .f32⟩
  | .hbm, ⟨25, _⟩ => ⟨S20x16, .f32⟩
  | .hbm, ⟨26, _⟩ => ⟨S100000x16, .f32⟩
  | .hbm, ⟨27, _⟩ => ⟨S1x16, .f32⟩
  | .hbm, ⟨28, _⟩ => ⟨S100000x16, .f32⟩
  | .hbm, ⟨29, _⟩ => ⟨S100000x16, .f32⟩
  | .hbm, ⟨30, _⟩ => ⟨S20x16, .f32⟩
  | .hbm, ⟨31, _⟩ => ⟨S100000x16, .f32⟩
  | .hbm, ⟨32, _⟩ => ⟨S100000x16, .f32⟩
  | .hbm, ⟨33, _⟩ => ⟨S_, .f32⟩
  | .hbm, ⟨34, _⟩ => ⟨S100000x16, .f32⟩
  | .hbm, ⟨35, _⟩ => ⟨S100000x16, .f32⟩
  | .hbm, ⟨36, _⟩ => ⟨S_, .i32⟩
  | .hbm, ⟨37, _⟩ => ⟨S3200000, .i32⟩
  | .hbm, ⟨38, _⟩ => ⟨S3200000, .i1⟩
  | .hbm, ⟨39, _⟩ => ⟨S_, .i32⟩
  | .hbm, ⟨40, _⟩ => ⟨S3200000, .i32⟩
  | .hbm, ⟨41, _⟩ => ⟨S3200000, .i32⟩
  | .hbm, ⟨42, _⟩ => ⟨S3200000, .i32⟩
  | .hbm, ⟨43, _⟩ => ⟨S3200000x1, .i32⟩
  | .hbm, ⟨44, _⟩ => ⟨S3200000x16, .f32⟩
  | .hbm, ⟨45, _⟩ => ⟨S_, .f32⟩
  | .hbm, ⟨46, _⟩ => ⟨S100000x16, .f32⟩
  | .hbm, ⟨47, _⟩ => ⟨S3200000x1, .i32⟩
  | .hbm, ⟨48, _⟩ => ⟨S100000x16, .f32⟩
  | .hbm, ⟨49, _⟩ => ⟨S16x1, .f32⟩
  | .hbm, ⟨50, _⟩ => ⟨S100000x1, .f32⟩
  | .hbm, ⟨51, _⟩ => ⟨S1x1, .f32⟩
  | .hbm, ⟨52, _⟩ => ⟨S100000x1, .f32⟩
  | .hbm, ⟨53, _⟩ => ⟨S100000x1, .f32⟩
  | .hbm, ⟨54, _⟩ => ⟨S16x1, .f32⟩
  | .hbm, ⟨55, _⟩ => ⟨S100000x1, .f32⟩
  | .hbm, ⟨56, _⟩ => ⟨S100000x1, .f32⟩
  | _, _ => ⟨S100000x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x20 : S_.BroadcastsInDim S100000x20 (![] : Fin 0 → Fin S100000x20.rank)
  transposes_S16x20_S20x16_1_0 : S16x20.Transposes [1, 0] S20x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  transposes_S1x16_S16x1_1_0 : S1x16.Transposes [1, 0] S16x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x20_S3200000x1_S3200000x20_1_0_n_n_0_1_120_wf : GatherDims.WF S100000x20 S3200000x1 S3200000x20 [1] [0] [] [0] [] 1 ![1, 20]
  scatter_S100000x20_S3200000x1_S3200000x20_1_0_0_1_wf : ScatterDims.WF S100000x20 S3200000x1 S3200000x20 [1] [0] [0] 1
  dot_S100000x20_S20x16_S100000x16_1_0_0_1_n_n_wf : DotDims.WF S100000x20 S20x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x1_S100000x1_1_0_0_1_n_n_wf : DotDims.WF S100000x16 S16x1 S100000x1 [1] [0] [0] [1] [] []

variable [Facts₀]

def gather_S100000x20_S3200000x1_S3200000x20_1_0_n_n_0_1_120 : GatherDims S100000x20 S3200000x1 S3200000x20 where
  offsetDims := [1]
  collapsedSliceDims := [0]
  operandBatchingDims := []
  startIndicesBatchingDims := []
  startIndexMap := [0]
  indexVectorDim := 1
  sliceSizes := ![1, 20]
  wf := gather_S100000x20_S3200000x1_S3200000x20_1_0_n_n_0_1_120_wf
def scatter_S100000x20_S3200000x1_S3200000x20_1_0_0_1 : ScatterDims S100000x20 S3200000x1 S3200000x20 where
  updateWindowDims := [1]
  insertedWindowDims := [0]
  scatterDimsToOperandDims := [0]
  indexVectorDim := 1
  wf := scatter_S100000x20_S3200000x1_S3200000x20_1_0_0_1_wf
def dot_S100000x20_S20x16_S100000x16_1_0_0_1_n_n : DotDims S100000x20 S20x16 S100000x16 where
  lhsContracting := [1]
  rhsContracting := [0]
  lhsNonContracting := [0]
  rhsNonContracting := [1]
  lhsBatch := []
  rhsBatch := []
  wf := dot_S100000x20_S20x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.BodyValue.lean ====
/-
  The two kernel bodies as arithmetic, read at one entry of their output block.

  Region 0's body, on blocks `a`, `x` of 10000 rows by 20 columns, weights `wr`, `wo` of 16 by 20 and a bias `b` of 16
  entries, stores at row `p`, column `q`
      max ( Σ_k a(p,k)·wr(q,k) + Σ_k x(p,k)·wo(q,k) + b(q) , 0 ).
  Region 1's body, on blocks of 10000 rows by 16 columns, weights of 1 by 16 and a bias of one entry, stores at row `p`
      Σ_k a(p,k)·wr(0,k) + Σ_k x(p,k)·wo(0,k) + b(0).
  On the extended reals the narrowing of the operands to a shorter float format is the identity, a matrix product into
  a zero accumulator is the plain sum of products over the contracted axis, and the transposed weights read at (k, q)
  are the weights at (q, k).
-/
import proofs.«100359_j17781164605885_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx
open scoped BigOperators

namespace Cert.KernelIdeal.Body

open Cert.KernelIdeal Cert.KernelIdeal.Gen

/-! ## The product of a 10000 × 20 block with a 20 × 16 matrix -/

theorem lhs_d0_0 (i : S10000x16.Idx) (q : dot_S10000x20_S20x16_S10000x16_1_0_0_1_n_n.contr.Idx) :
    (dot_S10000x20_S20x16_S10000x16_1_0_0_1_n_n.lhsIdx i q 0).val = (i 0).val := by
  unfold DotDims.lhsIdx
  rw [dif_neg (show ¬(0 : Fin S10000x20.rank) ∈ dot_S10000x20_S20x16_S10000x16_1_0_0_1_n_n.lhsBatch by decide), dif_pos (show (0 : Fin S10000x20.rank) ∈ dot_S10000x20_S20x16_S10000x16_1_0_0_1_n_n.lhsNonContracting by decide)]
  rfl
theorem lhs_d0_1 (i : S10000x16.Idx) (q : dot_S10000x20_S20x16_S10000x16_1_0_0_1_n_n.contr.Idx) :
    (dot_S10000x20_S20x16_S10000x16_1_0_0_1_n_n.lhsIdx i q 1).val = (q ⟨0, by decide⟩).val :=
  dot_S10000x20_S20x16_S10000x16_1_0_0_1_n_n.lhsIdx_val_of_single rfl i q
theorem rhs_d0_0 (i : S10000x16.Idx) (q : dot_S10000x20_S20x16_S10000x16_1_0_0_1_n_n.contr.Idx) :
    (dot_S10000x20_S20x16_S10000x16_1_0_0_1_n_n.rhsIdx i q 0).val = (q ⟨0, by decide⟩).val :=
  dot_S10000x20_S20x16_S10000x16_1_0_0_1_n_n.rhsIdx_val_of_single rfl i q
theorem rhs_d0_1 (i : S10000x16.Idx) (q : dot_S10000x20_S20x16_S10000x16_1_0_0_1_n_n.contr.Idx) :
    (dot_S10000x20_S20x16_S10000x16_1_0_0_1_n_n.rhsIdx i q 1).val = (i 1).val := by
  unfold DotDims.rhsIdx
  rw [dif_neg (show ¬(1 : Fin S20x16.rank) ∈ dot_S10000x20_S20x16_S10000x16_1_0_0_1_n_n.rhsBatch by decide), dif_pos (show (1 : Fin S20x16.rank) ∈ dot_S10000x20_S20x16_S10000x16_1_0_0_1_n_n.rhsNonContracting by decide)]
  rfl

/-- Entry (p, q) of the product into the zero accumulator is the sum over the 20 contracted columns. -/
theorem product0_apply {φ₁ φ₂ : FTy} (l : FVec Ideal S10000x20 φ₁) (r : FVec Ideal S20x16 φ₂) (p : Fin 10000) (q : Fin 16) :
    matmul dot_S10000x20_S20x16_S10000x16_1_0_0_1_n_n none l r (constant S10000x16 .f32 0x00000000#32) (ix2 p q)
      = ∑ k : Fin 20, l (ix2 p k) * r (ix2 k q) := by
  simp only [matmul]
  rw [Ideal.matmul_constant_zero_apply, ← Equiv.sum_comp (contrEquiv1 dot_S10000x20_S20x16_S10000x16_1_0_0_1_n_n 20 rfl rfl).symm]
  refine Finset.sum_congr rfl fun k _ => ?_
  have hk := contrEquiv1_symm_val dot_S10000x20_S20x16_S10000x16_1_0_0_1_n_n 20 rfl rfl k
  have el : dot_S10000x20_S20x16_S10000x16_1_0_0_1_n_n.lhsIdx (ix2 p q) ((contrEquiv1 dot_S10000x20_S20x16_S10000x16_1_0_0_1_n_n 20 rfl rfl).symm k) = ix2 p k := funext fun a => Fin.ext (by
    match a with
    | ⟨0, _⟩ => exact lhs_d0_0 _ _
    | ⟨1, _⟩ => exact (lhs_d0_1 _ _).trans hk)
  have er : dot_S10000x20_S20x16_S10000x16_1_0_0_1_n_n.rhsIdx (ix2 p q) ((contrEquiv1 dot_S10000x20_S20x16_S10000x16_1_0_0_1_n_n 20 rfl rfl).symm k) = ix2 k q := funext fun a => Fin.ext (by
    match a with
    | ⟨0, _⟩ => exact (rhs_d0_0 _ _).trans hk
    | ⟨1, _⟩ => exact rhs_d0_1 _ _)
  rw [el, er]

/-- The 16 × 20 weights transposed read, at (k, q), the weights at (q, k). -/
theorem weightsT0_apply {φ : FTy} (w : FVec Ideal S16x20 φ) (k : Fin 20) (q : Fin 16) :
    transpose S20x16 [1, 0] w transposes_S16x20_p1_0_S20x16 (ix2 k q) = w (ix2 q k) :=
  transpose_ix2_apply w transposes_S16x20_p1_0_S20x16 k q

/-- Entry (p, q) of a block times the TRANSPOSED 16 × 20 weights: the sum over k of block(p,k) · weights(q,k). -/
theorem productT0_apply {φ₁ φ₂ : FTy} (l : FVec Ideal S10000x20 φ₁) (w : FVec Ideal S16x20 φ₂) (p : Fin 10000) (q : Fin 16) :
    matmul dot_S10000x20_S20x16_S10000x16_1_0_0_1_n_n none l (transpose S20x16 [1, 0] w transposes_S16x20_p1_0_S20x16)
        (constant S10000x16 .f32 0x00000000#32) (ix2 p q)
      = ∑ k : Fin 20, l (ix2 p k) * w (ix2 q k) := by
  rw [product0_apply]
  exact Finset.sum_congr rfl fun k _ => by rw [weightsT0_apply]

/-- Region 0's stored value at row `p`, column `q` of the block. -/
theorem pay0_apply (a x : Vec Ideal S10000x20 .f32) (wr wo : Vec Ideal S16x20 .f32) (b : Vec Ideal S16 .f32)
    (p : Fin 10000) (q : Fin 16) :
    k0_pay1 (F := Ideal) a x wr wo b (ix2 p q)
      = max ((∑ k : Fin 20, a (ix2 p k) * wr (ix2 q k)) + (∑ k : Fin 20, x (ix2 p k) * wo (ix2 q k)) + b (ix1 q)) 0 := by
  unfold k0_pay1
  rw [maximumf_apply, addf_apply, addf_apply, productT0_apply, productT0_apply, broadcastTo_1b_ab_apply,
    shapeCast_a_1a_apply, broadcast_apply]
  simp only [truncf_apply, shapeCast_self]
  show max _ (Ideal.ofBits .f32 0x00000000#32) = _
  rw [Ideal.ofBits_zero_f32]

/-! ## The product of a 10000 × 16 block with a 16 × 1 matrix -/

theorem lhs_d1_0 (i : S10000x1.Idx) (q : dot_S10000x16_S16x1_S10000x1_1_0_0_1_n_n.contr.Idx) :
    (dot_S10000x16_S16x1_S10000x1_1_0_0_1_n_n.lhsIdx i q 0).val = (i 0).val := by
  unfold DotDims.lhsIdx
  rw [dif_neg (show ¬(0 : Fin S10000x16.rank) ∈ dot_S10000x16_S16x1_S10000x1_1_0_0_1_n_n.lhsBatch by decide), dif_pos (show (0 : Fin S10000x16.rank) ∈ dot_S10000x16_S16x1_S10000x1_1_0_0_1_n_n.lhsNonContracting by decide)]
  rfl
theorem lhs_d1_1 (i : S10000x1.Idx) (q : dot_S10000x16_S16x1_S10000x1_1_0_0_1_n_n.contr.Idx) :
    (dot_S10000x16_S16x1_S10000x1_1_0_0_1_n_n.lhsIdx i q 1).val = (q ⟨0, by decide⟩).val :=
  dot_S10000x16_S16x1_S10000x1_1_0_0_1_n_n.lhsIdx_val_of_single rfl i q
theorem rhs_d1_0 (i : S10000x1.Idx) (q : dot_S10000x16_S16x1_S10000x1_1_0_0_1_n_n.contr.Idx) :
    (dot_S10000x16_S16x1_S10000x1_1_0_0_1_n_n.rhsIdx i q 0).val = (q ⟨0, by decide⟩).val :=
  dot_S10000x16_S16x1_S10000x1_1_0_0_1_n_n.rhsIdx_val_of_single rfl i q
theorem rhs_d1_1 (i : S10000x1.Idx) (q : dot_S10000x16_S16x1_S10000x1_1_0_0_1_n_n.contr.Idx) :
    (dot_S10000x16_S16x1_S10000x1_1_0_0_1_n_n.rhsIdx i q 1).val = (i 1).val := by
  unfold DotDims.rhsIdx
  rw [dif_neg (show ¬(1 : Fin S16x1.rank) ∈ dot_S10000x16_S16x1_S10000x1_1_0_0_1_n_n.rhsBatch by decide), dif_pos (show (1 : Fin S16x1.rank) ∈ dot_S10000x16_S16x1_S10000x1_1_0_0_1_n_n.rhsNonContracting by decide)]
  rfl

/-- Entry (p, u) of the product into the zero accumulator is the sum over the 16 contracted columns. -/
theorem product1_apply {φ₁ φ₂ : FTy} (l : FVec Ideal S10000x16 φ₁) (r : FVec Ideal S16x1 φ₂) (p : Fin 10000) (u : Fin 1) :
    matmul dot_S10000x16_S16x1_S10000x1_1_0_0_1_n_n none l r (constant S10000x1 .f32 0x00000000#32) (ix2 p u)
      = ∑ k : Fin 16, l (ix2 p k) * r (ix2 k u) := by
  simp only [matmul]
  rw [Ideal.matmul_constant_zero_apply, ← Equiv.sum_comp (contrEquiv1 dot_S10000x16_S16x1_S10000x1_1_0_0_1_n_n 16 rfl rfl).symm]
  refine Finset.sum_congr rfl fun k _ => ?_
  have hk := contrEquiv1_symm_val dot_S10000x16_S16x1_S10000x1_1_0_0_1_n_n 16 rfl rfl k
  have el : dot_S10000x16_S16x1_S10000x1_1_0_0_1_n_n.lhsIdx (ix2 p u) ((contrEquiv1 dot_S10000x16_S16x1_S10000x1_1_0_0_1_n_n 16 rfl rfl).symm k) = ix2 p k := funext fun a => Fin.ext (by
    match a with
    | ⟨0, _⟩ => exact lhs_d1_0 _ _
    | ⟨1, _⟩ => exact (lhs_d1_1 _ _).trans hk)
  have er : dot_S10000x16_S16x1_S10000x1_1_0_0_1_n_n.rhsIdx (ix2 p u) ((contrEquiv1 dot_S10000x16_S16x1_S10000x1_1_0_0_1_n_n 16 rfl rfl).symm k) = ix2 k u := funext fun a => Fin.ext (by
    match a with
    | ⟨0, _⟩ => exact (rhs_d1_0 _ _).trans hk
    | ⟨1, _⟩ => exact rhs_d1_1 _ _)
  rw [el, er]

/-- The 1 × 16 weights transposed read, at (k, u), the weights at (u, k). -/
theorem weightsT1_apply {φ : FTy} (w : FVec Ideal S1x16 φ) (k : Fin 16) (u : Fin 1) :
    transpose S16x1 [1, 0] w transposes_S1x16_p1_0_S16x1 (ix2 k u) = w (ix2 u k) :=
  transpose_ix2_apply w transposes_S1x16_p1_0_S16x1 k u

/-- Entry (p, u) of a block times the TRANSPOSED 1 × 16 weights: the sum over k of block(p,k) · weights(u,k). -/
theorem productT1_apply {φ₁ φ₂ : FTy} (l : FVec Ideal S10000x16 φ₁) (w : FVec Ideal S1x16 φ₂) (p : Fin 10000) (u : Fin 1) :
    matmul dot_S10000x16_S16x1_S10000x1_1_0_0_1_n_n none l (transpose S16x1 [1, 0] w transposes_S1x16_p1_0_S16x1)
        (constant S10000x1 .f32 0x00000000#32) (ix2 p u)
      = ∑ k : Fin 16, l (ix2 p k) * w (ix2 u k) := by
  rw [product1_apply]
  exact Finset.sum_congr rfl fun k _ => by rw [weightsT1_apply]

/-- Region 1's stored value at row `p` of the block (`u` is the one column). -/
theorem pay1_apply (a x : Vec Ideal S10000x16 .f32) (wr wo : Vec Ideal S1x16 .f32) (b : Vec Ideal S1 .f32)
    (p : Fin 10000) (u : Fin 1) :
    k1_pay1 (F := Ideal) a x wr wo b (ix2 p u)
      = (∑ k : Fin 16, a (ix2 p k) * wr (ix2 u k)) + (∑ k : Fin 16, x (ix2 p k) * wo (ix2 u k)) + b (ix1 u) := by
  unfold k1_pay1
  rw [addf_apply, addf_apply, productT1_apply, productT1_apply, broadcastTo_1b_ab_apply, shapeCast_a_1a_apply]
  simp only [truncf_apply, shapeCast_self]

end Cert.KernelIdeal.Body

end
-- ==== Proof.Spec.lean ====
/-
  The mathematics both programs compute, as functions of whole arrays over the extended reals.

  A graph-convolution layer takes, for every node I, the sum `a(I, ·)` of its in-neighbours' feature rows and the node's
  own row `x(I, ·)`, and returns for output feature q
      affine(I, q) = Σ_k a(I,k)·wr(q,k) + Σ_k x(I,k)·wo(q,k) + b(q).
  The first layer (20 features in, 16 out) clamps this at zero from below; the second (16 in, 1 out) does not.
-/
import Idealize.ShloMosaic.Lib.ValueIdx
import Idealize.ShloMosaic.PureOps.Ideal

noncomputable section

open Idealize.ShloMosaic Idealize.ShloMosaic.ValueIdx
open scoped BigOperators

namespace Cert.Spec

/-- A rank-2 array of extended reals with `n0` rows and `n1` columns. -/
abbrev Mat (n0 n1 : Nat) : Type := Vec Ideal (⟨2, ![n0, n1]⟩ : Shape) .f32
/-- A rank-1 array of extended reals with `n` entries. -/
abbrev Row (n : Nat) : Type := Vec Ideal (⟨1, ![n]⟩ : Shape) .f32

/-- The affine part of a layer at node `I`, output feature `q`. -/
def affine {n fin fout : Nat} (a x : Mat n fin) (wr wo : Mat fout fin) (b : Row fout) (I : Fin n) (q : Fin fout) : EReal :=
  (∑ k : Fin fin, a (ix2 I k) * wr (ix2 q k)) + (∑ k : Fin fin, x (ix2 I k) * wo (ix2 q k)) + b (ix1 q)

/-- The first layer on whole arrays: the affine part clamped at zero from below. -/
def layer1 (a x : Mat 100000 20) (wr wo : Mat 16 20) (b : Row 16) : Mat 100000 16 :=
  fun i => max (affine a x wr wo b (i 0) (i 1)) 0

/-- The second layer on whole arrays: the affine part. -/
def layer2 (a x : Mat 100000 16) (wr wo : Mat 1 16) (b : Row 1) : Mat 100000 1 :=
  fun i => affine a x wr wo b (i 0) (i 1)

theorem layer1_apply (a x : Mat 100000 20) (wr wo : Mat 16 20) (b : Row 16) (I : Fin 100000) (q : Fin 16) :
    layer1 a x wr wo b (ix2 I q) = max (affine a x wr wo b I q) 0 := rfl

theorem layer2_apply (a x : Mat 100000 16) (wr wo : Mat 1 16) (b : Row 1) (I : Fin 100000) (u : Fin 1) :
    layer2 a x wr wo b (ix2 I u) = affine a x wr wo b I u := rfl

end Cert.Spec

end
-- ==== Proof.RegionValue.lean ====
/-
  Each region's output array after its ten grid points, as one function of the arrays the region is entered with.

  Grid point t of either region reads rows 10000·t … 10000·t + 9999 of its two row-tiled operands, the whole of its
  weights and bias, and writes back rows 10000·t … 10000·t + 9999 of the output. The ten written blocks tile the
  output's 100000 rows, so the output ends holding the layer function of the whole arrays.
-/
import proofs.«100359_j17781164605885_1_alg».proof.Proof.Gen.KernelIdeal.Frame
import proofs.«100359_j17781164605885_1_alg».proof.Proof.BodyValue
import proofs.«100359_j17781164605885_1_alg».proof.Proof.Spec
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.KernelIdeal.Region

open Cert.KernelIdeal Cert.KernelIdeal.Gen Cert.KernelIdeal.Body Cert.Spec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Region 0 -/

/-- The printed index maps of region 0, decided over the grid: the row-tiled windows sit at block row `t`, the
    weights and the bias at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of grid point `t`'s block is row 10000·t + p of the array. -/
def row0 (t : Fin cfg0.N) (p : Fin 10000) : Fin 100000 :=
  ⟨t.val * 10000 + p.val, by have h : t.val < cfg0.N := t.isLt; have hN : cfg0.N = 10 := N_0; have hp := p.isLt; omega⟩

/-- The neighbour-sum window's block at point `t`, read at (p, k). -/
theorem blk0_0 (c : Dev nD) (t : Fin cfg0.N) (p : Fin 10000) (k : Fin 20) :
    (iblk0 V c 0 t : Vec Ideal S10000x20 .f32) (ix2 p k) = (V c main_v13 : Vec Ideal S100000x20 .f32) (ix2 (row0 t p) k) := by
  unfold iblk0
  rw [View.read_apply]
  show V c main_v13 _ = V c main_v13 _
  congr 1
  funext a
  apply Fin.ext
  obtain ⟨e0, e1, -⟩ := idx_facts0 t
  match a with
  | ⟨0, _⟩ => show win0_0.index t (0 : Fin 2) * 10000 + 1 * p.val = t.val * 10000 + p.val; rw [e0]; omega
  | ⟨1, _⟩ => show win0_0.index t (1 : Fin 2) * 20 + 1 * k.val = k.val; rw [e1]; omega

/-- The node-feature window's block at point `t`, read at (p, k). -/
theorem blk0_1 (c : Dev nD) (t : Fin cfg0.N) (p : Fin 10000) (k : Fin 20) :
    (iblk0 V c 1 t : Vec Ideal S10000x20 .f32) (ix2 p k) = (V c main_arg0 : Vec Ideal S100000x20 .f32) (ix2 (row0 t p) k) := by
  unfold iblk0
  rw [View.read_apply]
  show V c main_arg0 _ = V c main_arg0 _
  congr 1
  funext a
  apply Fin.ext
  obtain ⟨-, -, e0, e1, -⟩ := idx_facts0 t
  match a with
  | ⟨0, _⟩ => show win0_1.index t (0 : Fin 2) * 10000 + 1 * p.val = t.val * 10000 + p.val; rw [e0]; omega
  | ⟨1, _⟩ => show win0_1.index t (1 : Fin 2) * 20 + 1 * k.val = k.val; rw [e1]; omega

/-- The neighbour weights' window is the whole array at every point. -/
theorem blk0_2 (c : Dev nD) (t : Fin cfg0.N) (q : Fin 16) (k : Fin 20) :
    (iblk0 V c 2 t : Vec Ideal S16x20 .f32) (ix2 q k) = (V c main_arg2 : Vec Ideal S16x20 .f32) (ix2 q k) := by
  unfold iblk0
  rw [View.read_apply]
  show V c main_arg2 _ = V c main_arg2 _
  congr 1
  funext a
  apply Fin.ext
  obtain ⟨-, -, -, -, e0, e1, -⟩ := idx_facts0 t
  match a with
  | ⟨0, _⟩ => show win0_2.index t (0 : Fin 2) * 16 + 1 * q.val = q.val; rw [e0]; omega
  | ⟨1, _⟩ => show win0_2.index t (1 : Fin 2) * 20 + 1 * k.val = k.val; rw [e1]; omega

/-- The bias window is the whole array at every point. -/
theorem blk0_3 (c : Dev nD) (t : Fin cfg0.N) (q : Fin 16) :
    (iblk0 V c 3 t : Vec Ideal S16 .f32) (ix1 q) = (V c main_arg3 : Vec Ideal S16 .f32) (ix1 q) := by
  unfold iblk0
  rw [View.read_apply]
  show V c main_arg3 _ = V c main_arg3 _
  congr 1
  funext a
  apply Fin.ext
  obtain ⟨-, -, -, -, -, -, e0, -⟩ := idx_facts0 t
  match a with
  | ⟨0, _⟩ => show win0_3.index t (0 : Fin 1) * 16 + 1 * q.val = q.val; rw [e0]; omega

/-- The self weights' window is the whole array at every point. -/
theorem blk0_4 (c : Dev nD) (t : Fin cfg0.N) (q : Fin 16) (k : Fin 20) :
    (iblk0 V c 4 t : Vec Ideal S16x20 .f32) (ix2 q k) = (V c main_arg4 : Vec Ideal S16x20 .f32) (ix2 q k) := by
  unfold iblk0
  rw [View.read_apply]
  show V c main_arg4 _ = V c main_arg4 _
  congr 1
  funext a
  apply Fin.ext
  obtain ⟨-, -, -, -, -, -, -, e0, e1, -⟩ := idx_facts0 t
  match a with
  | ⟨0, _⟩ => show win0_4.index t (0 : Fin 2) * 16 + 1 * q.val = q.val; rw [e0]; omega
  | ⟨1, _⟩ => show win0_4.index t (1 : Fin 2) * 20 + 1 * k.val = k.val; rw [e1]; omega

/-- What point `t` writes back is block `t` of the first layer of the arrays the region is entered with. -/
theorem flushed0_eq (c : Dev nD) (t : Fin cfg0.N) :
    (dat0 V c).flushed 5 t = ((cfg0.win 5).blk t).view.read (Elt Ideal)
      (layer1 (V c main_v13) (V c main_arg0) (V c main_arg2) (V c main_arg4) (V c main_arg3)) := by
  show (cfg0.win 5).cut (grid0.coords t) ((dat0 V c).after 5 t) = _
  rw [after0_5]
  unfold out0_5
  rw [View.canon_unit_zero hz2]
  simp only [View.ld_unit_zero (S := S10000x20) hz2, View.ld_unit_zero (S := S16x20) hz2, View.ld_unit_zero (S := S16) hz1]
  funext j
  obtain ⟨p, q, rfl⟩ : ∃ (p : Fin 10000) (q : Fin 16), j = ix2 p q := ⟨j 0, j 1, eq_ix2 j⟩
  rw [View.read_apply]
  have he : ((cfg0.win 5).blk t).view.emb (ix2 p q) = ix2 (row0 t p) q := by
    funext a
    apply Fin.ext
    obtain ⟨-, -, -, -, -, -, -, -, -, e0, e1⟩ := idx_facts0 t
    match a with
    | ⟨0, _⟩ => show win0_5.index t (0 : Fin 2) * 10000 + 1 * p.val = t.val * 10000 + p.val; rw [e0]; omega
    | ⟨1, _⟩ => show win0_5.index t (1 : Fin 2) * 16 + 1 * q.val = q.val; rw [e1]; omega
  rw [he, layer1_apply]
  show k0_pay1 (F := Ideal) (iblk0 V c 0 t) (iblk0 V c 1 t) (iblk0 V c 2 t) (iblk0 V c 4 t) (iblk0 V c 3 t) (ix2 p q)
    = max (affine (V c main_v13) (V c main_arg0) (V c main_arg2) (V c main_arg4) (V c main_arg3) (row0 t p) q) 0
  refine (pay0_apply (iblk0 V c 0 t) (iblk0 V c 1 t) (iblk0 V c 2 t) (iblk0 V c 4 t) (iblk0 V c 3 t) p q).trans ?_
  unfold affine
  simp only [blk0_0 V c t p, blk0_1 V c t p, blk0_2 V c t q, blk0_3 V c t q, blk0_4 V c t q]

/-- Region 0's output array after the last point: the first layer of the arrays the region is entered with. The ten
    written blocks tile the 100000 rows: row r lies in the block of point r / 10000. -/
theorem final0 (c : Dev nD) :
    (dat0 V c).arrAt 5 cfg0.N = layer1 (V c main_v13) (V c main_arg0) (V c main_arg2) (V c main_arg4) (V c main_arg3) :=
  (dat0 V c).arrAt_eq_of_cover 5 _ (fun t _ => flushed0_eq V c t) fun i => by
    have hi0 : (i 0).val < 100000 := (i 0).isLt
    have hi1 : (i 1).val < 16 := (i 1).isLt
    have hN : cfg0.N = 10 := N_0
    have ht : (i 0).val / 10000 < cfg0.N := by omega
    refine ⟨⟨(i 0).val / 10000, ht⟩, flush0_5 _, ?_⟩
    show i ∈ ((View.whole main_v14).slice (win0_5.rect ⟨(i 0).val / 10000, ht⟩)).set
    rw [View.set_slice_whole, Rect.mem_set_unit]
    intro a
    obtain ⟨-, -, -, -, -, -, -, -, -, e0, e1⟩ := idx_facts0 ⟨(i 0).val / 10000, ht⟩
    match a with
    | ⟨0, _⟩ =>
      show win0_5.index ⟨(i 0).val / 10000, ht⟩ (0 : Fin 2) * 10000 ≤ (i 0).val
        ∧ (i 0).val < win0_5.index ⟨(i 0).val / 10000, ht⟩ (0 : Fin 2) * 10000 + 10000
      rw [e0]
      show (i 0).val / 10000 * 10000 ≤ (i 0).val ∧ (i 0).val < (i 0).val / 10000 * 10000 + 10000
      omega
    | ⟨1, _⟩ =>
      show win0_5.index ⟨(i 0).val / 10000, ht⟩ (1 : Fin 2) * 16 ≤ (i 1).val
        ∧ (i 1).val < win0_5.index ⟨(i 0).val / 10000, ht⟩ (1 : Fin 2) * 16 + 16
      rw [e1]
      omega

/-! ## Region 1 -/

/-- The printed index maps of region 1, decided over the grid. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of grid point `t`'s block is row 10000·t + p of the array. -/
def row1 (t : Fin cfg1.N) (p : Fin 10000) : Fin 100000 :=
  ⟨t.val * 10000 + p.val, by have h : t.val < cfg1.N := t.isLt; have hN : cfg1.N = 10 := N_1; have hp := p.isLt; omega⟩

/-- The neighbour-sum window's block at point `t`, read at (p, k). -/
theorem blk1_0 (c : Dev nD) (t : Fin cfg1.N) (p : Fin 10000) (k : Fin 16) :
    (iblk1 V c 0 t : Vec Ideal S10000x16 .f32) (ix2 p k) = (V c main_v24 : Vec Ideal S100000x16 .f32) (ix2 (row1 t p) k) := by
  unfold iblk1
  rw [View.read_apply]
  show V c main_v24 _ = V c main_v24 _
  congr 1
  funext a
  apply Fin.ext
  obtain ⟨e0, e1, -⟩ := idx_facts1 t
  match a with
  | ⟨0, _⟩ => show win1_0.index t (0 : Fin 2) * 10000 + 1 * p.val = t.val * 10000 + p.val; rw [e0]; omega
  | ⟨1, _⟩ => show win1_0.index t (1 : Fin 2) * 16 + 1 * k.val = k.val; rw [e1]; omega

/-- The hidden-feature window's block at point `t`, read at (p, k). -/
theorem blk1_1 (c : Dev nD) (t : Fin cfg1.N) (p : Fin 10000) (k : Fin 16) :
    (iblk1 V c 1 t : Vec Ideal S10000x16 .f32) (ix2 p k) = (V c main_v14 : Vec Ideal S100000x16 .f32) (ix2 (row1 t p) k) := by
  unfold iblk1
  rw [View.read_apply]
  show V c main_v14 _ = V c main_v14 _
  congr 1
  funext a
  apply Fin.ext
  obtain ⟨-, -, e0, e1, -⟩ := idx_facts1 t
  match a with
  | ⟨0, _⟩ => show win1_1.index t (0 : Fin 2) * 10000 + 1 * p.val = t.val * 10000 + p.val; rw [e0]; omega
  | ⟨1, _⟩ => show win1_1.index t (1 : Fin 2) * 16 + 1 * k.val = k.val; rw [e1]; omega

/-- The neighbour weights' window is the whole array at every point. -/
theorem blk1_2 (c : Dev nD) (t : Fin cfg1.N) (u : Fin 1) (k : Fin 16) :
    (iblk1 V c 2 t : Vec Ideal S1x16 .f32) (ix2 u k) = (V c main_arg5 : Vec Ideal S1x16 .f32) (ix2 u k) := by
  unfold iblk1
  rw [View.read_apply]
  show V c main_arg5 _ = V c main_arg5 _
  congr 1
  funext a
  apply Fin.ext
  obtain ⟨-, -, -, -, e0, e1, -⟩ := idx_facts1 t
  match a with
  | ⟨0, _⟩ => show win1_2.index t (0 : Fin 2) * 1 + 1 * u.val = u.val; rw [e0]; omega
  | ⟨1, _⟩ => show win1_2.index t (1 : Fin 2) * 16 + 1 * k.val = k.val; rw [e1]; omega

/-- The bias window is the whole array at every point. -/
theorem blk1_3 (c : Dev nD) (t : Fin cfg1.N) (u : Fin 1) :
    (iblk1 V c 3 t : Vec Ideal S1 .f32) (ix1 u) = (V c main_arg6 : Vec Ideal S1 .f32) (ix1 u) := by
  unfold iblk1
  rw [View.read_apply]
  show V c main_arg6 _ = V c main_arg6 _
  congr 1
  funext a
  apply Fin.ext
  obtain ⟨-, -, -, -, -, -, e0, -⟩ := idx_facts1 t
  match a with
  | ⟨0, _⟩ => show win1_3.index t (0 : Fin 1) * 1 + 1 * u.val = u.val; rw [e0]; omega

/-- The self weights' window is the whole array at every point. -/
theorem blk1_4 (c : Dev nD) (t : Fin cfg1.N) (u : Fin 1) (k : Fin 16) :
    (iblk1 V c 4 t : Vec Ideal S1x16 .f32) (ix2 u k) = (V c main_arg7 : Vec Ideal S1x16 .f32) (ix2 u k) := by
  unfold iblk1
  rw [View.read_apply]
  show V c main_arg7 _ = V c main_arg7 _
  congr 1
  funext a
  apply Fin.ext
  obtain ⟨-, -, -, -, -, -, -, e0, e1, -⟩ := idx_facts1 t
  match a with
  | ⟨0, _⟩ => show win1_4.index t (0 : Fin 2) * 1 + 1 * u.val = u.val; rw [e0]; omega
  | ⟨1, _⟩ => show win1_4.index t (1 : Fin 2) * 16 + 1 * k.val = k.val; rw [e1]; omega

/-- What point `t` writes back is block `t` of the second layer of the arrays the region is entered with. -/
theorem flushed1_eq (c : Dev nD) (t : Fin cfg1.N) :
    (dat1 V c).flushed 5 t = ((cfg1.win 5).blk t).view.read (Elt Ideal)
      (layer2 (V c main_v24) (V c main_v14) (V c main_arg5) (V c main_arg7) (V c main_arg6)) := by
  show (cfg1.win 5).cut (grid1.coords t) ((dat1 V c).after 5 t) = _
  rw [after1_5]
  unfold out1_5
  rw [View.canon_unit_zero hz2]
  simp only [View.ld_unit_zero (S := S10000x16) hz2, View.ld_unit_zero (S := S1x16) hz2, View.ld_unit_zero (S := S1) hz1]
  funext j
  obtain ⟨p, u, rfl⟩ : ∃ (p : Fin 10000) (u : Fin 1), j = ix2 p u := ⟨j 0, j 1, eq_ix2 j⟩
  rw [View.read_apply]
  have he : ((cfg1.win 5).blk t).view.emb (ix2 p u) = ix2 (row1 t p) u := by
    funext a
    apply Fin.ext
    obtain ⟨-, -, -, -, -, -, -, -, -, e0, e1⟩ := idx_facts1 t
    match a with
    | ⟨0, _⟩ => show win1_5.index t (0 : Fin 2) * 10000 + 1 * p.val = t.val * 10000 + p.val; rw [e0]; omega
    | ⟨1, _⟩ => show win1_5.index t (1 : Fin 2) * 1 + 1 * u.val = u.val; rw [e1]; omega
  rw [he, layer2_apply]
  show k1_pay1 (F := Ideal) (iblk1 V c 0 t) (iblk1 V c 1 t) (iblk1 V c 2 t) (iblk1 V c 4 t) (iblk1 V c 3 t) (ix2 p u)
    = affine (V c main_v24) (V c main_v14) (V c main_arg5) (V c main_arg7) (V c main_arg6) (row1 t p) u
  refine (pay1_apply (iblk1 V c 0 t) (iblk1 V c 1 t) (iblk1 V c 2 t) (iblk1 V c 4 t) (iblk1 V c 3 t) p u).trans ?_
  unfold affine
  simp only [blk1_0 V c t p, blk1_1 V c t p, blk1_2 V c t u, blk1_3 V c t u, blk1_4 V c t u]

/-- Region 1's output array after the last point: the second layer of the arrays the region is entered with. The ten
    written blocks tile the 100000 rows: row r lies in the block of point r / 10000. -/
theorem final1 (c : Dev nD) :
    (dat1 V c).arrAt 5 cfg1.N = layer2 (V c main_v24) (V c main_v14) (V c main_arg5) (V c main_arg7) (V c main_arg6) :=
  (dat1 V c).arrAt_eq_of_cover 5 _ (fun t _ => flushed1_eq V c t) fun i => by
    have hi0 : (i 0).val < 100000 := (i 0).isLt
    have hi1 : (i 1).val < 1 := (i 1).isLt
    have hN : cfg1.N = 10 := N_1
    have ht : (i 0).val / 10000 < cfg1.N := by omega
    refine ⟨⟨(i 0).val / 10000, ht⟩, flush1_5 _, ?_⟩
    show i ∈ ((View.whole main_v25).slice (win1_5.rect ⟨(i 0).val / 10000, ht⟩)).set
    rw [View.set_slice_whole, Rect.mem_set_unit]
    intro a
    obtain ⟨-, -, -, -, -, -, -, -, -, e0, e1⟩ := idx_facts1 ⟨(i 0).val / 10000, ht⟩
    match a with
    | ⟨0, _⟩ =>
      show win1_5.index ⟨(i 0).val / 10000, ht⟩ (0 : Fin 2) * 10000 ≤ (i 0).val
        ∧ (i 0).val < win1_5.index ⟨(i 0).val / 10000, ht⟩ (0 : Fin 2) * 10000 + 10000
      rw [e0]
      show (i 0).val / 10000 * 10000 ≤ (i 0).val ∧ (i 0).val < (i 0).val / 10000 * 10000 + 10000
      omega
    | ⟨1, _⟩ =>
      show win1_5.index ⟨(i 0).val / 10000, ht⟩ (1 : Fin 2) * 1 ≤ (i 1).val
        ∧ (i 1).val < win1_5.index ⟨(i 0).val / 10000, ht⟩ (1 : Fin 2) * 1 + 1
      rw [e1]
      omega

end Cert.KernelIdeal.Region

end
-- ==== Proof.KernelValue.lean ====
/-
  The two-region program's result as one function of the eight argument arrays.

  The program is: a host stretch that forms the in-neighbour sums of the node features (gather the source rows, add
  them into the destination rows); region 0, the first layer; a host stretch that forms the in-neighbour sums of the
  hidden features; region 1, the second layer. Reading the result buffer back through that fold gives
      layer2 (sums of H) H w5 w7 b6,   H = layer1 (sums of x) x w2 w4 b3.
-/
import proofs.«100359_j17781164605885_1_alg».proof.Proof.Gen.KernelIdeal.Frame
import proofs.«100359_j17781164605885_1_alg».proof.Proof.RegionValue
import Idealize.ShloMosaic.Lib.StableHlo.Run

set_option maxRecDepth 16384

noncomputable section

open Idealize.ShloMosaic Idealize.ShloMosaic.TcCoe Idealize.ShloMosaic.ValueIdx Idealize.SL.Sem Idealize.ShloMosaic.StableHlo
open Idealize.ShloMosaic.Pipeline (Dat)

namespace Cert.KernelIdeal.Fold

open Cert.KernelIdeal Cert.KernelIdeal.Gen Cert.KernelIdeal.Region Cert.Spec

variable {F : FTy → Type} [FloatOps F]

/-- Row 0 of the edge list, as the program reads it. -/
def rawSources (e : (⟨S2x3200000, .i32⟩ : BufTy).Contents (Elt F)) : (⟨S3200000, .i32⟩ : BufTy).Contents (Elt F) :=
  shapeCast _ (extractStridedSlice S1x3200000 ![0, 0] e slices_S2x3200000_S1x3200000_0_0) shapeCasts_S1x3200000_S3200000

/-- The edges' source nodes: row 0 of the edge list, a negative entry counted from the end. -/
def sources (e : (⟨S2x3200000, .i32⟩ : BufTy).Contents (Elt F)) : (⟨S3200000, .i32⟩ : BufTy).Contents (Elt F) :=
  select (cmpi .slt (rawSources e) (broadcastInDim S3200000 ![] bcast_S_S3200000 (constantI S_ 32 0#32)))
    (addi (rawSources e) (broadcastInDim S3200000 ![] bcast_S_S3200000 (constantI S_ 32 100000#32)))
    (rawSources e)

/-- The edges' destination nodes: row 1 of the edge list. -/
def dests (e : (⟨S2x3200000, .i32⟩ : BufTy).Contents (Elt F)) : (⟨S3200000, .i32⟩ : BufTy).Contents (Elt F) :=
  shapeCast _ (extractStridedSlice S1x3200000 ![1, 0] e slices_S2x3200000_S1x3200000_1_0) shapeCasts_S1x3200000_S3200000

/-- The in-neighbour sums of 20-column features: each edge's source row added into its destination row. -/
def sums20 (x : (⟨S100000x20, .f32⟩ : BufTy).Contents (Elt F)) (e : (⟨S2x3200000, .i32⟩ : BufTy).Contents (Elt F)) :
    (⟨S100000x20, .f32⟩ : BufTy).Contents (Elt F) :=
  Host.scatterAdd scatter_S100000x20_S3200000x1_S3200000x20_1_0_0_1
    (broadcastInDim S100000x20 ![] bcast_S_S100000x20 (constant S_ .f32 0x00000000#32))
    (broadcastInDim S3200000x1 ![0] bcast_S3200000_S3200000x1_0 (dests e))
    (Host.gather gather_S100000x20_S3200000x1_S3200000x20_1_0_n_n_0_1_120 x (broadcastInDim S3200000x1 ![0] bcast_S3200000_S3200000x1_0 (sources e)))

/-- The in-neighbour sums of 16-column features. -/
def sums16 (h : (⟨S100000x16, .f32⟩ : BufTy).Contents (Elt F)) (e : (⟨S2x3200000, .i32⟩ : BufTy).Contents (Elt F)) :
    (⟨S100000x16, .f32⟩ : BufTy).Contents (Elt F) :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 (dests e))
    (Host.gather gather_S100000x16_S3200000x1_S3200000x16_1_0_n_n_0_1_116 h (broadcastInDim S3200000x1 ![0] bcast_S3200000_S3200000x1_0 (sources e)))

variable (m : (ℓ : Loc nD τ sig) → Buf (Elt F) ℓ) (ρ : Dev nD → PrngReg)

/-! ## The first host stretch: from the launch memory to region 0's entry -/

theorem W1_v13 (c : Dev nD) : W1 m ρ c (Proc.devRef .tc main_v13)
    = sums20 (m ((c.tc : Thread nD τ).loc main_arg0)) (m ((c.tc : Thread nD τ).loc main_arg1)) := by
  show StableHlo.after hostOps0 (W0 m ρ c) (Proc.devRef .tc main_v13) = _
  after_results
  rfl

theorem W1_v1 (c : Dev nD) : W1 m ρ c (Proc.devRef .tc main_v1) = rawSources (m ((c.tc : Thread nD τ).loc main_arg1)) := by
  show StableHlo.after hostOps0 (W0 m ρ c) (Proc.devRef .tc main_v1) = _
  after_results
  rfl

theorem W1_v3 (c : Dev nD) : W1 m ρ c (Proc.devRef .tc main_v3) = dests (m ((c.tc : Thread nD τ).loc main_arg1)) := by
  show StableHlo.after hostOps0 (W0 m ρ c) (Proc.devRef .tc main_v3) = _
  after_results
  rfl

theorem W1_arg0 (c : Dev nD) : W1 m ρ c (Proc.devRef .tc main_arg0) = m ((c.tc : Thread nD τ).loc main_arg0) := by
  show StableHlo.after hostOps0 (W0 m ρ c) (Proc.devRef .tc main_arg0) = _
  after_results
theorem W1_arg2 (c : Dev nD) : W1 m ρ c (Proc.devRef .tc main_arg2) = m ((c.tc : Thread nD τ).loc main_arg2) := by
  show StableHlo.after hostOps0 (W0 m ρ c) (Proc.devRef .tc main_arg2) = _
  after_results
theorem W1_arg3 (c : Dev nD) : W1 m ρ c (Proc.devRef .tc main_arg3) = m ((c.tc : Thread nD τ).loc main_arg3) := by
  show StableHlo.after hostOps0 (W0 m ρ c) (Proc.devRef .tc main_arg3) = _
  after_results
theorem W1_arg4 (c : Dev nD) : W1 m ρ c (Proc.devRef .tc main_arg4) = m ((c.tc : Thread nD τ).loc main_arg4) := by
  show StableHlo.after hostOps0 (W0 m ρ c) (Proc.devRef .tc main_arg4) = _
  after_results
theorem W1_arg5 (c : Dev nD) : W1 m ρ c (Proc.devRef .tc main_arg5) = m ((c.tc : Thread nD τ).loc main_arg5) := by
  show StableHlo.after hostOps0 (W0 m ρ c) (Proc.devRef .tc main_arg5) = _
  after_results
theorem W1_arg6 (c : Dev nD) : W1 m ρ c (Proc.devRef .tc main_arg6) = m ((c.tc : Thread nD τ).loc main_arg6) := by
  show StableHlo.after hostOps0 (W0 m ρ c) (Proc.devRef .tc main_arg6) = _
  after_results
theorem W1_arg7 (c : Dev nD) : W1 m ρ c (Proc.devRef .tc main_arg7) = m ((c.tc : Thread nD τ).loc main_arg7) := by
  show StableHlo.after hostOps0 (W0 m ρ c) (Proc.devRef .tc main_arg7) = _
  after_results

/-! ## Across region 0: it writes its output array only -/

theorem W2_v1 (c : Dev nD) : W2 m ρ c (Proc.devRef .tc main_v1) = rawSources (m ((c.tc : Thread nD τ).loc main_arg1)) :=
  (W2_of_ne m ρ c main_v1 (by decide)).trans (W1_v1 m ρ c)
theorem W2_v3 (c : Dev nD) : W2 m ρ c (Proc.devRef .tc main_v3) = dests (m ((c.tc : Thread nD τ).loc main_arg1)) :=
  (W2_of_ne m ρ c main_v3 (by decide)).trans (W1_v3 m ρ c)
theorem W2_arg5 (c : Dev nD) : W2 m ρ c (Proc.devRef .tc main_arg5) = m ((c.tc : Thread nD τ).loc main_arg5) :=
  (W2_of_ne m ρ c main_arg5 (by decide)).trans (W1_arg5 m ρ c)
theorem W2_arg6 (c : Dev nD) : W2 m ρ c (Proc.devRef .tc main_arg6) = m ((c.tc : Thread nD τ).loc main_arg6) :=
  (W2_of_ne m ρ c main_arg6 (by decide)).trans (W1_arg6 m ρ c)
theorem W2_arg7 (c : Dev nD) : W2 m ρ c (Proc.devRef .tc main_arg7) = m ((c.tc : Thread nD τ).loc main_arg7) :=
  (W2_of_ne m ρ c main_arg7 (by decide)).trans (W1_arg7 m ρ c)

/-! ## The second host stretch: from region 0's exit to region 1's entry -/

theorem W3_v24 (c : Dev nD) : W3 m ρ c (Proc.devRef .tc main_v24)
    = sums16 (W2 m ρ c (Proc.devRef .tc main_v14)) (m ((c.tc : Thread nD τ).loc main_arg1)) := by
  show StableHlo.after hostOps1 (W2 m ρ c) (Proc.devRef .tc main_v24) = _
  after_results
  rw [W2_v1, W2_v3]
  rfl

theorem W3_v14 (c : Dev nD) : W3 m ρ c (Proc.devRef .tc main_v14) = W2 m ρ c (Proc.devRef .tc main_v14) := by
  show StableHlo.after hostOps1 (W2 m ρ c) (Proc.devRef .tc main_v14) = _
  after_results
theorem W3_arg5 (c : Dev nD) : W3 m ρ c (Proc.devRef .tc main_arg5) = m ((c.tc : Thread nD τ).loc main_arg5) := by
  show StableHlo.after hostOps1 (W2 m ρ c) (Proc.devRef .tc main_arg5) = _
  after_results
  exact W2_arg5 m ρ c
theorem W3_arg6 (c : Dev nD) : W3 m ρ c (Proc.devRef .tc main_arg6) = m ((c.tc : Thread nD τ).loc main_arg6) := by
  show StableHlo.after hostOps1 (W2 m ρ c) (Proc.devRef .tc main_arg6) = _
  after_results
  exact W2_arg6 m ρ c
theorem W3_arg7 (c : Dev nD) : W3 m ρ c (Proc.devRef .tc main_arg7) = m ((c.tc : Thread nD τ).loc main_arg7) := by
  show StableHlo.after hostOps1 (W2 m ρ c) (Proc.devRef .tc main_arg7) = _
  after_results
  exact W2_arg7 m ρ c

end Cert.KernelIdeal.Fold

namespace Cert.KernelIdeal.Fold

open Cert.KernelIdeal Cert.KernelIdeal.Gen Cert.KernelIdeal.Region Cert.Spec

variable (m : (ℓ : Loc nD τ sig) → Buf (Elt Ideal) ℓ) (ρ : Dev nD → PrngReg)

/-! ## The two regions, and the result -/

/-- The hidden features as a function of the arguments: the first layer of the in-neighbour sums and the node features. -/
def hidden (x : (⟨S100000x20, .f32⟩ : BufTy).Contents (Elt Ideal)) (e : (⟨S2x3200000, .i32⟩ : BufTy).Contents (Elt Ideal))
    (w2 : (⟨S16x20, .f32⟩ : BufTy).Contents (Elt Ideal)) (b3 : (⟨S16, .f32⟩ : BufTy).Contents (Elt Ideal))
    (w4 : (⟨S16x20, .f32⟩ : BufTy).Contents (Elt Ideal)) : (⟨S100000x16, .f32⟩ : BufTy).Contents (Elt Ideal) :=
  layer1 (sums20 x e) x w2 w4 b3

/-- The program's result as a function of the arguments: the second layer of the hidden features' in-neighbour sums
    and the hidden features. -/
def result (x : (⟨S100000x20, .f32⟩ : BufTy).Contents (Elt Ideal)) (e : (⟨S2x3200000, .i32⟩ : BufTy).Contents (Elt Ideal))
    (w2 : (⟨S16x20, .f32⟩ : BufTy).Contents (Elt Ideal)) (b3 : (⟨S16, .f32⟩ : BufTy).Contents (Elt Ideal))
    (w4 : (⟨S16x20, .f32⟩ : BufTy).Contents (Elt Ideal)) (w5 : (⟨S1x16, .f32⟩ : BufTy).Contents (Elt Ideal))
    (b6 : (⟨S1, .f32⟩ : BufTy).Contents (Elt Ideal)) (w7 : (⟨S1x16, .f32⟩ : BufTy).Contents (Elt Ideal)) :
    (⟨S100000x1, .f32⟩ : BufTy).Contents (Elt Ideal) :=
  layer2 (sums16 (hidden x e w2 b3 w4) e) (hidden x e w2 b3 w4) w5 w7 b6

/-- Region 0 leaves the hidden features in its output array. -/
theorem W2_v14 (c : Dev nD) : W2 m ρ c (Proc.devRef .tc main_v14)
    = hidden (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (W2_arr m ρ c 5).trans ((final0 (V1 m ρ) c).trans ?_)
  show layer1 (W1 m ρ c (Proc.devRef .tc main_v13)) (W1 m ρ c (Proc.devRef .tc main_arg0)) (W1 m ρ c (Proc.devRef .tc main_arg2))
    (W1 m ρ c (Proc.devRef .tc main_arg4)) (W1 m ρ c (Proc.devRef .tc main_arg3)) = _
  rw [W1_v13, W1_arg0, W1_arg2, W1_arg4, W1_arg3]
  rfl

/-- Region 1 leaves the result in the result buffer. -/
theorem W4_v25 (c : Dev nD) : W4 m ρ c (Proc.devRef .tc main_v25)
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  refine (W4_arr m ρ c 5).trans ((final1 (V3 m ρ) c).trans ?_)
  show layer2 (W3 m ρ c (Proc.devRef .tc main_v24)) (W3 m ρ c (Proc.devRef .tc main_v14)) (W3 m ρ c (Proc.devRef .tc main_arg5))
    (W3 m ρ c (Proc.devRef .tc main_arg7)) (W3 m ρ c (Proc.devRef .tc main_arg6)) = _
  rw [W3_v24, W3_v14, W3_arg5, W3_arg7, W3_arg6, W2_v14]
  rfl

end Cert.KernelIdeal.Fold

end
-- ==== Proof.RefValue.lean ====
/-
  The reference program's result as the same two layer functions of whole arrays.

  The reference adds the bias before the self term, (Σ a·wr + b) + Σ x·wo, where the layer function adds it last;
  addition on the extended reals is commutative and associative, so the two agree at every entry with no
  finiteness assumption.
-/
import proofs.«100359_j17781164605885_1_alg».proof.Proof.Gen.ReferenceIdeal.Read
import proofs.«100359_j17781164605885_1_alg».proof.Proof.Spec
import Idealize.ShloMosaic.Lib.ValueIdx
import Idealize.ShloMosaic.PureOps.Ideal.Laws

set_option maxRecDepth 16384

noncomputable section

open Idealize.ShloMosaic Idealize.ShloMosaic.ValueIdx
open scoped BigOperators

namespace Cert.ReferenceIdeal.RefValue

open Cert.ReferenceIdeal Cert.ReferenceIdeal.Gen Cert.ReferenceIdeal.Read Cert.Spec

/-! ## Index maps of the first layer's operations, at explicit coordinates -/

theorem l15 (I : Fin 100000) (q : Fin 16) (k : Fin 20) : lidx_main_v15 (ix2 I q) k = ix2 I k :=
  funext fun a => Fin.ext (by match a with | ⟨0, _⟩ => rfl | ⟨1, _⟩ => rfl)
theorem r15 (I : Fin 100000) (q : Fin 16) (k : Fin 20) : idx_main_v14 (ridx_main_v15 (ix2 I q) k) = ix2 q k :=
  funext fun a => Fin.ext (by match a with | ⟨0, _⟩ => rfl | ⟨1, _⟩ => rfl)
theorem l20 (I : Fin 100000) (q : Fin 16) (k : Fin 20) : lidx_main_v20 (ix2 I q) k = ix2 I k :=
  funext fun a => Fin.ext (by match a with | ⟨0, _⟩ => rfl | ⟨1, _⟩ => rfl)
theorem r20 (I : Fin 100000) (q : Fin 16) (k : Fin 20) : idx_main_v19 (ridx_main_v20 (ix2 I q) k) = ix2 q k :=
  funext fun a => Fin.ext (by match a with | ⟨0, _⟩ => rfl | ⟨1, _⟩ => rfl)
theorem b17 (I : Fin 100000) (q : Fin 16) : idx_main_v16 (idx_main_v17 (ix2 I q)) = ix1 q :=
  funext fun a => Fin.ext (by match a with | ⟨0, _⟩ => rfl)

/-- The reference's hidden features are the first layer of the in-neighbour sums and the node features. -/
theorem hidden_eq (x0 : (⟨S100000x20, .f32⟩ : BufTy).Contents (Elt Ideal)) (x1 : (⟨S2x3200000, .i32⟩ : BufTy).Contents (Elt Ideal))
    (x2 : (⟨S16x20, .f32⟩ : BufTy).Contents (Elt Ideal)) (x3 : (⟨S16, .f32⟩ : BufTy).Contents (Elt Ideal)) (x4 : (⟨S16x20, .f32⟩ : BufTy).Contents (Elt Ideal)) :
    val_main_v22 (F := Ideal) x0 x1 x2 x3 x4 = layer1 (val_main_v13 (F := Ideal) x0 x1) x0 x2 x4 x3 := by
  funext i
  obtain ⟨I, q, rfl⟩ : ∃ (I : Fin 100000) (q : Fin 16), i = ix2 I q := ⟨i 0, i 1, eq_ix2 i⟩
  rw [layer1_apply, val_main_v22_apply, val_main_v21_apply, val_main_v18_apply, val_main_v15_apply, val_main_v17_apply,
    val_main_v16_apply, val_main_v20_apply, val_main_call0_v0_apply, val_main_call0_cst_apply]
  simp only [val_main_v14_apply, val_main_v19_apply, l15, r15, l20, r20, b17]
  show max ((∑ k : Fin 20, val_main_v13 (F := Ideal) x0 x1 (ix2 I k) * x2 (ix2 q k)) + x3 (ix1 q)
      + (∑ k : Fin 20, x0 (ix2 I k) * x4 (ix2 q k))) (Ideal.ofBits .f32 0x00000000#32) = _
  rw [Ideal.ofBits_zero_f32, add_right_comm]
  rfl

/-! ## Index maps of the second layer's operations, at explicit coordinates -/

theorem l34 (I : Fin 100000) (u : Fin 1) (k : Fin 16) : lidx_main_v34 (ix2 I u) k = ix2 I k :=
  funext fun a => Fin.ext (by match a with | ⟨0, _⟩ => rfl | ⟨1, _⟩ => rfl)
theorem r34 (I : Fin 100000) (u : Fin 1) (k : Fin 16) : idx_main_v33 (ridx_main_v34 (ix2 I u) k) = ix2 u k :=
  funext fun a => Fin.ext (by match a with | ⟨0, _⟩ => rfl | ⟨1, _⟩ => rfl)
theorem l39 (I : Fin 100000) (u : Fin 1) (k : Fin 16) : lidx_main_v39 (ix2 I u) k = ix2 I k :=
  funext fun a => Fin.ext (by match a with | ⟨0, _⟩ => rfl | ⟨1, _⟩ => rfl)
theorem r39 (I : Fin 100000) (u : Fin 1) (k : Fin 16) : idx_main_v38 (ridx_main_v39 (ix2 I u) k) = ix2 u k :=
  funext fun a => Fin.ext (by match a with | ⟨0, _⟩ => rfl | ⟨1, _⟩ => rfl)
theorem b36 (I : Fin 100000) (u : Fin 1) : idx_main_v35 (idx_main_v36 (ix2 I u)) = ix1 u :=
  funext fun a => Fin.ext (by
    match a with
    | ⟨0, _⟩ => show 0 = u.val; have := u.isLt; omega)

/-- The in-neighbour sums of 16-column features, as the reference forms them. -/
def sums16 (h : FVec Ideal S100000x16 .f32) (e : (⟨S2x3200000, .i32⟩ : BufTy).Contents (Elt Ideal)) :
    FVec Ideal S100000x16 .f32 :=
  Host.scatterAdd (F := Ideal) (φ := .f32) scatter_S100000x16_S3200000x1_S3200000x16_1_0_0_1 (val_main_v30 (F := Ideal)) (val_main_v31 (F := Ideal) e)
    (Host.gather gather_S100000x16_S3200000x1_S3200000x16_1_0_n_n_0_1_116 h (val_main_v28 (F := Ideal) e))

/-- The reference's second in-neighbour sums are those of its hidden features. -/
theorem sums_hidden_eq (x0 : (⟨S100000x20, .f32⟩ : BufTy).Contents (Elt Ideal)) (x1 : (⟨S2x3200000, .i32⟩ : BufTy).Contents (Elt Ideal))
    (x2 : (⟨S16x20, .f32⟩ : BufTy).Contents (Elt Ideal)) (x3 : (⟨S16, .f32⟩ : BufTy).Contents (Elt Ideal)) (x4 : (⟨S16x20, .f32⟩ : BufTy).Contents (Elt Ideal)) :
    val_main_v32 (F := Ideal) x0 x1 x2 x3 x4 = sums16 (val_main_v22 (F := Ideal) x0 x1 x2 x3 x4) x1 := rfl

/-- The reference's result is the second layer of its hidden features' in-neighbour sums and its hidden features. -/
theorem result_eq (x0 : (⟨S100000x20, .f32⟩ : BufTy).Contents (Elt Ideal)) (x1 : (⟨S2x3200000, .i32⟩ : BufTy).Contents (Elt Ideal))
    (x2 : (⟨S16x20, .f32⟩ : BufTy).Contents (Elt Ideal)) (x3 : (⟨S16, .f32⟩ : BufTy).Contents (Elt Ideal)) (x4 : (⟨S16x20, .f32⟩ : BufTy).Contents (Elt Ideal))
    (x5 : (⟨S1x16, .f32⟩ : BufTy).Contents (Elt Ideal)) (x6 : (⟨S1, .f32⟩ : BufTy).Contents (Elt Ideal)) (x7 : (⟨S1x16, .f32⟩ : BufTy).Contents (Elt Ideal)) :
    val_main_v40 (F := Ideal) x0 x1 x2 x3 x4 x5 x6 x7
      = layer2 (val_main_v32 (F := Ideal) x0 x1 x2 x3 x4) (val_main_v22 (F := Ideal) x0 x1 x2 x3 x4) x5 x7 x6 := by
  funext i
  obtain ⟨I, u, rfl⟩ : ∃ (I : Fin 100000) (u : Fin 1), i = ix2 I u := ⟨i 0, i 1, eq_ix2 i⟩
  rw [layer2_apply, val_main_v40_apply, val_main_v37_apply, val_main_v34_apply, val_main_v36_apply, val_main_v35_apply,
    val_main_v39_apply]
  simp only [val_main_v33_apply, val_main_v38_apply, l34, r34, l39, r39, b36]
  show (∑ k : Fin 16, val_main_v32 (F := Ideal) x0 x1 x2 x3 x4 (ix2 I k) * x5 (ix2 u k)) + x6 (ix1 u)
      + (∑ k : Fin 16, val_main_v22 (F := Ideal) x0 x1 x2 x3 x4 (ix2 I k) * x7 (ix2 u k)) = _
  rw [add_right_comm]
  rfl

end Cert.ReferenceIdeal.RefValue

end
-- ==== Proof.lean ====
/-
  The kernel and the reference compute the same two-layer graph convolution.

  Both programs form, on the host, the in-neighbour sums of the node features by the same gather and segment sum;
  both apply the first layer, clamp it at zero, form the in-neighbour sums of the hidden features the same way, and
  apply the second layer. The kernel does each layer's affine part in a ten-point row-tiled region, with its operands
  narrowed to a shorter float format (the identity on the extended reals) and the bias added last; the reference does
  it with two whole-array products and the bias added between them. Over the extended reals both are
      layer2 (sums of H) H w5 w7 b6,   H = layer1 (sums of x) x w2 w4 b3,
  the two orders of addition joined by commutativity and associativity, which hold at the infinities too: the
  precondition is never opened.

  The three frames: the kernel's two are the generated frame certificates; the reference's is its generated run with the
  result dropped. The idealization rewrote nothing, so its claim is trivial.
-/
import proofs.«100359_j17781164605885_1_alg».proof.Defs
import proofs.«100359_j17781164605885_1_alg».proof.Proof.Gen.Kernel
import proofs.«100359_j17781164605885_1_alg».proof.Proof.Gen.Kernel.Skeleton
import proofs.«100359_j17781164605885_1_alg».proof.Proof.Gen.Kernel.Launch
import proofs.«100359_j17781164605885_1_alg».proof.Proof.Gen.Kernel.Points
import proofs.«100359_j17781164605885_1_alg».proof.Proof.Gen.Kernel.Frame
import proofs.«100359_j17781164605885_1_alg».proof.Proof.Gen.KernelIdeal
import proofs.«100359_j17781164605885_1_alg».proof.Proof.Gen.KernelIdeal.Skeleton
import proofs.«100359_j17781164605885_1_alg».proof.Proof.Gen.KernelIdeal.Launch
import proofs.«100359_j17781164605885_1_alg».proof.Proof.Gen.KernelIdeal.Points
import proofs.«100359_j17781164605885_1_alg».proof.Proof.Gen.KernelIdeal.Frame
import proofs.«100359_j17781164605885_1_alg».proof.Proof.Gen.ReferenceIdeal
import proofs.«100359_j17781164605885_1_alg».proof.Proof.Gen.Pre_finite_inputs
import proofs.«100359_j17781164605885_1_alg».proof.Proof.Gen.ReferenceIdeal.Run
import proofs.«100359_j17781164605885_1_alg».proof.Proof.Gen.ReferenceIdeal.Read
import proofs.«100359_j17781164605885_1_alg».proof.Proof.KernelRun
import proofs.«100359_j17781164605885_1_alg».proof.Proof.KernelValue
import proofs.«100359_j17781164605885_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-! ## The two programs' in-neighbour sums are one function -/

/-- The sums of 20-column features: the same gather and segment sum, each program citing its own shape records. -/
theorem sums20_eq (x : (⟨Cert.KernelIdeal.S100000x20, .f32⟩ : BufTy).Contents (Elt Ideal))
    (e : (⟨Cert.KernelIdeal.S2x3200000, .i32⟩ : BufTy).Contents (Elt Ideal)) :
    Cert.KernelIdeal.Fold.sums20 (F := Ideal) x e = Cert.ReferenceIdeal.Read.val_main_v13 (F := Ideal) x e := rfl

/-- The sums of 16-column features. -/
theorem sums16_eq (h : (⟨Cert.KernelIdeal.S100000x16, .f32⟩ : BufTy).Contents (Elt Ideal))
    (e : (⟨Cert.KernelIdeal.S2x3200000, .i32⟩ : BufTy).Contents (Elt Ideal)) :
    Cert.KernelIdeal.Fold.sums16 (F := Ideal) h e = Cert.ReferenceIdeal.RefValue.sums16 h e := rfl

/-- The kernel's result function is the reference's last stage. -/
theorem result_agrees (x0 : (⟨Cert.KernelIdeal.S100000x20, .f32⟩ : BufTy).Contents (Elt Ideal))
    (x1 : (⟨Cert.KernelIdeal.S2x3200000, .i32⟩ : BufTy).Contents (Elt Ideal))
    (x2 : (⟨Cert.KernelIdeal.S16x20, .f32⟩ : BufTy).Contents (Elt Ideal)) (x3 : (⟨Cert.KernelIdeal.S16, .f32⟩ : BufTy).Contents (Elt Ideal))
    (x4 : (⟨Cert.KernelIdeal.S16x20, .f32⟩ : BufTy).Contents (Elt Ideal)) (x5 : (⟨Cert.KernelIdeal.S1x16, .f32⟩ : BufTy).Contents (Elt Ideal))
    (x6 : (⟨Cert.KernelIdeal.S1, .f32⟩ : BufTy).Contents (Elt Ideal)) (x7 : (⟨Cert.KernelIdeal.S1x16, .f32⟩ : BufTy).Contents (Elt Ideal)) :
    Cert.ReferenceIdeal.Read.val_main_v40 (F := Ideal) x0 x1 x2 x3 x4 x5 x6 x7
      = Cert.KernelIdeal.Fold.result x0 x1 x2 x3 x4 x5 x6 x7 := by
  rw [Cert.ReferenceIdeal.RefValue.result_eq, Cert.ReferenceIdeal.RefValue.sums_hidden_eq, Cert.ReferenceIdeal.RefValue.hidden_eq]
  unfold Cert.KernelIdeal.Fold.result Cert.KernelIdeal.Fold.hidden
  rw [sums20_eq, sums16_eq]

/-! ## The claims -/

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result function of the arguments. -/
theorem algebraic : Cert.algebraic_KernelIdeal_ReferenceIdeal := by
  intro m ρ m' ρ' _ hagree
  refine ⟨fun c => Cert.KernelIdeal.Fold.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Fold.W4_v25 m ρ c), (h c).2⟩)
      (Cert.KernelIdeal.Launched.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v40_eq, h0, h1, h2, h3, h4, h5, h6, h7]
    exact result_agrees _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
